-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2049 : Shape := ⟨2, ![8192, 2049]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2049 : S_.BroadcastsInDim S8192x2049 (![] : Fin 0 → Fin S8192x2049.rank)
  reducesTo_S8192x2049_S_d0_1 : S8192x2049.ReducesTo [0, 1] S_

variable [Facts]

def fn {F : FTy → Type} [FloatOps F] (main_arg0 : FVec F S4096x2048 .f32) (main_arg1 : FVec F S8192x2049 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2049 .f32 := Host.absf main_arg1
  let main_cst_0 : FVec F S_ .f32 := constant S_ .f32 0x7F800000#32
  let main_v5 : FVec F S8192x2049 .f32 := broadcastInDim S8192x2049 ![] bcast_S_S8192x2049 main_cst_0
  let main_v6 : IVec S8192x2049 1 := cmpf .olt main_v4 main_v5
  let main_c_1 : IVec S_ 1 := constantI S_ 1 1#1
  let main_v7 : IVec S_ 1 := (fun x v => Host.reduce IntOp.andi x v reducesTo_S8192x2049_S_d0_1 h_S_) main_v6 main_c_1
  let main_v8 : IVec S_ 1 := andi main_v3 main_v7
  main_v8
-- ==== Kernel.lean ====
abbrev S4096x2048 : Shape := ⟨2, ![4096, 2048]⟩
abbrev S8192x2049 : Shape := ⟨2, ![8192, 2049]⟩
abbrev S8192x2048 : Shape := ⟨2, ![8192, 2048]⟩
abbrev S8192x1 : Shape := ⟨2, ![8192, 1]⟩
abbrev S8192 : Shape := ⟨1, ![8192]⟩
abbrev S1x8192 : Shape := ⟨2, ![1, 8192]⟩
abbrev S4096x8192 : Shape := ⟨2, ![4096, 8192]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8192x2049, .f32⟩
  | .hbm, ⟨2, _⟩ => ⟨S8192x2048, .f32⟩
  | .hbm, ⟨3, _⟩ => ⟨S8192x1, .f32⟩
  | .hbm, ⟨4, _⟩ => ⟨S8192, .f32⟩
  | .hbm, ⟨5, _⟩ => ⟨S1x8192, .f32⟩
  | .hbm, ⟨6, _⟩ => ⟨S4096x8192, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8192x2049_S8192x2048_0_0 : S8192x2049.Slices ![0, 0] S8192x2048
  slices_S8192x2049_S8192x1_0_2048 : S8192x2049.Slices ![0, 2048] S8192x1
  shapeCasts_S8192x1_S8192 : S8192x1.ShapeCasts S8192
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x8192.size a
  hwx0_3 : ∀ i : grid0.Coords, EltTy.bits .f32 = 32 ∨ (Rect.block (s := S4096x8192) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2049 : Shape := ⟨2, ![8192, 2049]⟩
abbrev S8192x2048 : Shape := ⟨2, ![8192, 2048]⟩
abbrev S8192x1 : Shape := ⟨2, ![8192, 1]⟩
abbrev S8192 : Shape := ⟨1, ![8192]⟩
abbrev S4096x8192 : Shape := ⟨2, ![4096, 8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2049, .f32⟩
  | .hbm, ⟨2, _⟩ => ⟨S8192x2048, .f32⟩
  | .hbm, ⟨3, _⟩ => ⟨S8192x1, .f32⟩
  | .hbm, ⟨4, _⟩ => ⟨S8192, .f32⟩
  | .hbm, ⟨5, _⟩ => ⟨S4096x8192, .f32⟩
  | .hbm, ⟨6, _⟩ => ⟨S1x8192, .f32⟩
  | .hbm, ⟨7, _⟩ => ⟨S4096x8192, .f32⟩
  | .hbm, ⟨8, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  slices_S8192x2049_S8192x2048_0_0 : S8192x2049.Slices ![0, 0] S8192x2048
  slices_S8192x2049_S8192x1_0_2048 : S8192x2049.Slices ![0, 2048] S8192x1
  shapeCasts_S8192x1_S8192 : S8192x1.ShapeCasts S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.AffineSpec.lean ====
/-
  The function both programs compute, stated once over plain index types. The input `x` has shape
  [4096, 2048]; the parameter matrix `w` has shape [8192, 2049], its first 2048 columns the weights and its
  last column the bias. On the extended reals

      out[r, s] = (Σ_{k < 2048} x[r, k] · w[s, k]) + w[s, 2048].

  The product is taken row against row (both operands contract their second axis), so no transpose appears,
  and the bias is added once, after the whole contraction.
-/
import Idealize.ShloMosaic.PureOps.Ideal
import Idealize.ShloMosaic.Lib.ValueIdx

noncomputable section

namespace Cert.Affine

open Idealize.ShloMosaic Idealize.ShloMosaic.ValueIdx

/-- Weight column `k` of the parameter matrix: one of its first 2048 columns. -/
abbrev wcol (k : Fin 2048) : Fin 2049 := ⟨k.val, by have := k.isLt; omega⟩

/-- The bias column of the parameter matrix: its last one. -/
abbrev bcol : Fin 2049 := ⟨2048, by omega⟩

/-- Entry (r, s) of the result: row `r` of `x` against weight row `s` of `w`, plus the bias of row `s`. -/
def affineAt (x : FVec Ideal ⟨2, ![4096, 2048]⟩ .f32) (w : FVec Ideal ⟨2, ![8192, 2049]⟩ .f32)
    (r : Fin 4096) (s : Fin 8192) : EReal :=
  (∑ k : Fin 2048, x (ix2 r k) * w (ix2 s (wcol k))) + w (ix2 s bcol)

/-- The whole result array, index by index. -/
def affine (x : FVec Ideal ⟨2, ![4096, 2048]⟩ .f32) (w : FVec Ideal ⟨2, ![8192, 2049]⟩ .f32) :
    FVec Ideal ⟨2, ![4096, 8192]⟩ .f32 :=
  fun i => affineAt x w ⟨(i 0).val, idx2_lt0 i⟩ ⟨(i 1).val, idx2_lt1 i⟩

theorem affine_ix2 (x : FVec Ideal ⟨2, ![4096, 2048]⟩ .f32) (w : FVec Ideal ⟨2, ![8192, 2049]⟩ .f32)
    (r : Fin 4096) (s : Fin 8192) : affine x w (ix2 r s) = affineAt x w r s := rfl

end Cert.Affine

end
-- ==== Proof.RefIsAffine.lean ====
/-
  The reference computes `affine`. Its last stage is the sum of two arrays. The first is the host product of
  `x` with the slice of `w` that keeps columns 0 … 2047, contracting the second axis of both: at (r, s) the sum
  over k of x[r, k] · w[s, k]. The second is column 2048 of `w`, sliced out as an [8192, 1] array, flattened
  to [8192], laid along the second axis of a [1, 8192] array and repeated down the 4096 rows: at (r, s) it is
  w[s, 2048]. Reading each stage at an index and composing the index maps gives `affineAt`.
-/
import proofs.«148127_j4114578669651_1_alg».proof.Proof.Gen.ReferenceIdeal.Read
import proofs.«148127_j4114578669651_1_alg».proof.Proof.AffineSpec

noncomputable section

namespace Cert.Affine.Ref

open Idealize.ShloMosaic Idealize.ShloMosaic.ValueIdx Cert.ReferenceIdeal Cert.ReferenceIdeal.Read Cert.Affine

/-- The left operand of the product is read at (r, k). -/
theorem lidx_eq (i : S4096x8192.Idx) (k : Fin 2048) :
    lidx_main_v3 i k = ix2 (⟨(i 0).val, idx2_lt0 i⟩ : Fin 4096) k :=
  funext fun a => Fin.ext (by match a with | ⟨0, _⟩ => rfl | ⟨1, _⟩ => rfl)

/-- The right operand, a slice at offset (0, 0), is read at (s, k) of the parameter matrix. -/
theorem ridx_eq (i : S4096x8192.Idx) (k : Fin 2048) :
    idx_main_v0 (ridx_main_v3 i k) = ix2 (⟨(i 1).val, idx2_lt1 i⟩ : Fin 8192) (wcol k) :=
  funext fun a => Fin.ext (by match a with | ⟨0, _⟩ => rfl | ⟨1, _⟩ => rfl)

/-- The repeated row is read at (s, 2048) of the parameter matrix. -/
theorem bidx_eq (i : S4096x8192.Idx) :
    idx_main_v1 (idx_main_v2 (idx_main_v4 (idx_main_v5 i))) = ix2 (⟨(i 1).val, idx2_lt1 i⟩ : Fin 8192) bcol :=
  funext fun a => Fin.ext (by
    match a with
    | ⟨0, _⟩ => exact Nat.div_one _
    | ⟨1, _⟩ => rfl)

/-- The reference's result stage is `affine` of the two arguments. -/
theorem val_eq_affine (x : (⟨S4096x2048, .f32⟩ : BufTy).Contents (Elt Ideal)) (w : (⟨S8192x2049, .f32⟩ : BufTy).Contents (Elt Ideal)) :
    val_main_v6 (F := Ideal) x w = affine x w := by
  funext i
  rw [val_main_v6_apply, val_main_v3_apply, val_main_v5_apply, val_main_v4_apply, val_main_v2_apply, val_main_v1_apply, bidx_eq]
  simp only [val_main_v0_apply, lidx_eq, ridx_eq, Ideal.addf_def]
  rfl

end Cert.Affine.Ref

end
-- ==== Proof.BlockBody.lean ====
/-
  What one grid point computes. The body loads a [1024, 2048] block `a` of the input, a [512, 2048] block `b`
  of the weights and a [1, 512] block `z` of the bias row, narrows `a` and `b` (a change of format: the
  identity on the extended reals), multiplies them row against row into a zero accumulator and adds `z`
  repeated down the 1024 rows. So entry (p, q) of what it stores is

      (Σ_{k < 2048} a[p, k] · b[q, k]) + z[0, q].

  The product's operand indices are read off the dimension numbers: both operands keep axis 0 and contract
  axis 1, so at output (p, q) and contraction coordinate k the left operand is read at (p, k) and the right
  at (q, k).
-/
import proofs.«148127_j4114578669651_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Affine.Body

open Idealize.ShloMosaic Idealize.ShloMosaic.ValueIdx Cert.KernelIdeal Cert.KernelIdeal.Gen

/-- The left operand keeps the output's row on its axis 0 … -/
theorem lhs_row (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
/-- … and carries the contraction coordinate on its axis 1. -/
theorem lhs_contr (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
/-- The right operand keeps the output's column on its axis 0 … -/
theorem rhs_row (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
/-- … and carries the contraction coordinate on its axis 1. -/
theorem rhs_contr (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The block product into a zero accumulator, at (p, q): the sum over k of a[p, k] · b[q, k]. -/
theorem product_at (a : FVec Ideal S1024x2048 .bf16) (b : FVec Ideal S512x2048 .bf16) (p : Fin 1024) (q : Fin 512) :
    matmul dot_S1024x2048_S512x2048_S1024x512_1_1_0_0_n_n none a b (constant S1024x512 .f32 0x00000000#32) (ix2 p q)
      = ∑ k : Fin 2048, a (ix2 p k) * b (ix2 q k) := by
  simp only [matmul]
  rw [Ideal.matmul_constant_zero_apply, ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q) ((contrEquiv1 dot_S1024x2048_S512x2048_S1024x512_1_1_0_0_n_n 2048 rfl rfl).symm k) = ix2 p k := funext fun a => Fin.ext (by
    match a with
    | ⟨0, _⟩ => exact lhs_row _ _
    | ⟨1, _⟩ => exact (lhs_contr _ _).trans hk)
  have er : dot_S1024x2048_S512x2048_S1024x512_1_1_0_0_n_n.rhsIdx (ix2 p q) ((contrEquiv1 dot_S1024x2048_S512x2048_S1024x512_1_1_0_0_n_n 2048 rfl rfl).symm k) = ix2 q k := funext fun a => Fin.ext (by
    match a with
    | ⟨0, _⟩ => exact rhs_row _ _
    | ⟨1, _⟩ => exact (rhs_contr _ _).trans hk)
  rw [el, er]

/-- The bias row repeated down the rows, at (p, q): z[0, q]. -/
theorem bias_at (z : FVec Ideal S1x512 .f32) (p : Fin 1024) (q : Fin 512) :
    broadcastTo S1024x512 z broadcasts_S1x512_S1024x512 (ix2 p q) = z (ix2 (0 : Fin 1) q) :=
  broadcastTo_apply z broadcasts_S1x512_S1024x512 (ix2 p q) (ix2 (0 : Fin 1) q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-- What the body stores, at (p, q). -/
theorem stored_at (a : Vec Ideal S1024x2048 .f32) (b : Vec Ideal S512x2048 .f32) (z : Vec Ideal S1x512 .f32)
    (p : Fin 1024) (q : Fin 512) :
    k0_pay1 (F := Ideal) a b z (ix2 p q) = (∑ k : Fin 2048, a (ix2 p k) * b (ix2 q k)) + z (ix2 (0 : Fin 1) q) := by
  unfold k0_pay1
  rw [addf_apply, product_at, shapeCast_self, shapeCast_self, bias_at]
  rfl

end Cert.Affine.Body

end
-- ==== Proof.Staged.lean ====
/-
  The arrays the kernel's windows stage, as the region finds them. Before the region the host slices the
  parameter matrix `w` twice: columns 0 … 2047 become the [8192, 2048] weights array, and column 2048, an
  [8192, 1] array, is flattened to [8192] and then laid out as one row, [1, 8192]. Read at an index:

      weights[s, k] = w[s, k]        biasrow[0, s] = w[s, 2048].

  Both reshapes keep the row-major position, which for a column [8192, 1], a vector [8192] and a row
  [1, 8192] is the one coordinate that is not pinned to zero.
-/
import proofs.«148127_j4114578669651_1_alg».proof.Proof.Gen.KernelIdeal.Frame
import proofs.«148127_j4114578669651_1_alg».proof.Proof.AffineSpec
import Idealize.ShloMosaic.Lib.ValueIdx
import Idealize.ShloMosaic.Lib.Pipeline.Value
import Idealize.ShloMosaic.Lib.StableHlo.Run

noncomputable section

namespace Cert.Affine.Staged

open Idealize.ShloMosaic Idealize.ShloMosaic.TcCoe Idealize.ShloMosaic.ValueIdx Idealize.SL.Sem
open Cert.KernelIdeal Cert.KernelIdeal.Gen Cert.Affine

variable (m : (ℓ : Loc nD τ sig) → Buf (Elt Ideal) ℓ)

/-- The parameter matrix as launched, at its literal type. -/
abbrev param (c : Dev nD) : S8192x2049.Idx → EReal := m ((c : Thread nD τ).loc main_arg1)

/-- The weights array the region finds is the slice of the parameter matrix at offset (0, 0). -/
theorem weights_eq (c : Dev nD) :
    (V m c main_v0 : S8192x2048.Idx → EReal)
      = extractStridedSlice S8192x2048 ![0, 0] (param m c) slices_S8192x2049_S8192x2048_0_0 := by
  dsimp only [Gen.V, Gen.hostOps0]; after_results <;> rfl

/-- weights[s, k] = w[s, k]. -/
theorem weights_at (c : Dev nD) (s : Fin 8192) (k : Fin 2048) :
    (V m c main_v0 : S8192x2048.Idx → EReal) (ix2 s k) = param m c (ix2 s (wcol k)) := by
  rw [weights_eq]
  exact extractStridedSlice_apply ![0, 0] (param m c) slices_S8192x2049_S8192x2048_0_0 (ix2 s k) (ix2 s (wcol k)) (fun a => match a with
    | ⟨0, _⟩ => by show s.val = 0 + s.val; omega
    | ⟨1, _⟩ => by show k.val = 0 + k.val; omega)

/-- The bias row the region finds: column 2048 of the parameter matrix, flattened, then laid out as a row. -/
theorem biasrow_eq (c : Dev nD) :
    (V m c main_v3 : S1x8192.Idx → EReal)
      = shapeCast S1x8192 (shapeCast S8192 (extractStridedSlice S8192x1 ![0, 2048] (param m c) slices_S8192x2049_S8192x1_0_2048)
          shapeCasts_S8192x1_S8192) shapeCasts_S8192_S1x8192 := by
  dsimp only [Gen.V, Gen.hostOps0]; after_results <;> rfl

/-- biasrow[0, s] = w[s, 2048]. -/
theorem biasrow_at (c : Dev nD) (s : Fin 8192) :
    (V m c main_v3 : S1x8192.Idx → EReal) (ix2 (0 : Fin 1) s) = param m c (ix2 s bcol) := by
  rw [biasrow_eq]
  rw [shapeCast_apply _ shapeCasts_S8192_S1x8192 (ix2 (0 : Fin 1) s) (ix1 s)
    (by rewrite [Shape.rowMajor_val_one, Shape.rowMajor_val_two]; show s.val = 0 * 8192 + s.val; omega)]
  rw [shapeCast_apply _ shapeCasts_S8192x1_S8192 (ix1 s) (ix2 s (0 : Fin 1))
    (by rewrite [Shape.rowMajor_val_two, Shape.rowMajor_val_one]; show s.val * 1 + 0 = s.val; omega)]
  exact extractStridedSlice_apply ![0, 2048] (param m c) slices_S8192x2049_S8192x1_0_2048 (ix2 s (0 : Fin 1)) (ix2 s bcol) (fun a => match a with
    | ⟨0, _⟩ => by show s.val = 0 + s.val; omega
    | ⟨1, _⟩ => by show (2048 : Nat) = 2048 + 0; rfl)

end Cert.Affine.Staged

end
-- ==== Proof.KernelRun.lean ====
/-
  The kernel's result array is `affine` of its two arguments. The grid has 4 × 16 points; point (i, j) stages
  rows 1024·i … 1024·i + 1023 of the input, rows 512·j … 512·j + 511 of the weights, entries 512·j … 512·j + 511
  of the bias row, and writes back the [1024, 512] block of the result at block index (i, j). By the body's value
  at an index (the block product over the WHOLE contraction axis, plus the bias entry), entry (p, q) of what point
  (i, j) writes is `affineAt x w (1024·i + p) (512·j + q)`: the block of `affine` the window names. The 64 blocks
  tile the result, the point covering (r, s) being (r / 1024, s / 512), so after the run the array is `affine`
  everywhere.
-/
import proofs.«148127_j4114578669651_1_alg».proof.Proof.Gen.KernelIdeal.Value
import proofs.«148127_j4114578669651_1_alg».proof.Proof.AffineSpec
import proofs.«148127_j4114578669651_1_alg».proof.Proof.BlockBody
import proofs.«148127_j4114578669651_1_alg».proof.Proof.Staged

noncomputable section

namespace Cert.Affine.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Affine

/-! ## One point, over plain blocks -/

/-- If `a`, `b`, `z` hold the rows `R p` of `x`, the weight rows `C q` of `w` and the bias entries `C q` of `w`,
    then what the body stores at (p, q) is entry (R p, C q) of `affine x w`. -/
theorem stored_is_block (x : FVec Ideal ⟨2, ![4096, 2048]⟩ .f32) (w : FVec Ideal ⟨2, ![8192, 2049]⟩ .f32)
    (a : Vec Ideal S1024x2048 .f32) (b : Vec Ideal S512x2048 .f32) (z : Vec Ideal S1x512 .f32)
    (R : Fin 1024 → Fin 4096) (C : Fin 512 → Fin 8192)
    (ha : ∀ p k, a (ix2 p k) = x (ix2 (R p) k))
    (hb : ∀ q k, b (ix2 q k) = w (ix2 (C q) (wcol k)))
    (hz : ∀ q, z (ix2 (0 : Fin 1) q) = w (ix2 (C q) bcol))
    (p : Fin 1024) (q : Fin 512) :
    k0_pay1 (F := Ideal) a b z (ix2 p q) = affineAt x w (R p) (C q) := by
  rw [Body.stored_at]
  unfold affineAt
  simp only [ha, hb, hz]

/-! ## The grid -/

theorem zero_off : (![0, 0] : Fin 2 → Nat) = fun _ => 0 := funext fun a => by fin_cases a <;> rfl

/-- The printed index maps, decided over the 64 points: the input's block index is (the output's row block, 0), the
    weights' is (the output's column block, 0), the bias row's is (0, the output's column block); the output's row
    block is at most 3 and its column block at most 15. -/
theorem grid_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 15 :=
  (by decide +kernel : ∀ t : Fin grid0.N, _)

/-- Every block index (i, j) with i < 4 and j < 16 is some point's. -/
theorem grid_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

variable (m : (ℓ : Loc nD τ sig) → Buf (Elt Ideal) ℓ) (ρ : Dev nD → PrngReg)

/-- The input as launched, at its literal type. -/
abbrev input (c : Dev nD) : S4096x2048.Idx → EReal := m ((c : Thread nD τ).loc main_arg0)

/-- The three staged blocks at a point, at their literal types. -/
abbrev ablk (c : Dev nD) (t : Fin cfg0.N) : Vec Ideal S1024x2048 .f32 := iblk m c 0 t
abbrev bblk (c : Dev nD) (t : Fin cfg0.N) : Vec Ideal S512x2048 .f32 := iblk m c 1 t
abbrev zblk (c : Dev nD) (t : Fin cfg0.N) : Vec Ideal S1x512 .f32 := iblk m c 2 t

/-- The input block at a point holds rows 1024·i + p of the input. -/
theorem ablk_at (c : Dev nD) (t : Fin cfg0.N) (p : Fin 1024) (k : Fin 2048) (R : Fin 4096)
    (hR : R.val = win0_3.index t (0 : Fin 2) * 1024 + p.val) :
    ablk m c t (ix2 p k) = input m c (ix2 R k) := by
  obtain ⟨e0, e1, -⟩ := grid_facts t
  show V m c main_arg0 (((cfg0.win 0).blk t).view.emb (ix2 p k)) = _
  rw [V_main_arg0]
  refine congrArg (input m c) (funext fun a => Fin.ext ?_)
  match a with
  | ⟨0, _⟩ => show win0_0.index t (0 : Fin 2) * 1024 + 1 * p.val = R.val; omega
  | ⟨1, _⟩ => show win0_0.index t (1 : Fin 2) * 2048 + 1 * k.val = k.val; omega

/-- The weights block at a point holds weight rows 512·j + q of the parameter matrix. -/
theorem bblk_at (c : Dev nD) (t : Fin cfg0.N) (q : Fin 512) (k : Fin 2048) (C : Fin 8192)
    (hC : C.val = win0_3.index t (1 : Fin 2) * 512 + q.val) :
    bblk m c t (ix2 q k) = Staged.param m c (ix2 C (wcol k)) := by
  obtain ⟨-, -, e2, e3, -⟩ := grid_facts t
  show (V m c main_v0 : S8192x2048.Idx → EReal) (((cfg0.win 1).blk t).view.emb (ix2 q k)) = _
  rw [← Staged.weights_at m c C k]
  refine congrArg (V m c main_v0 : S8192x2048.Idx → EReal) (funext fun a => Fin.ext ?_)
  match a with
  | ⟨0, _⟩ => show win0_1.index t (0 : Fin 2) * 512 + 1 * q.val = C.val; omega
  | ⟨1, _⟩ => show win0_1.index t (1 : Fin 2) * 2048 + 1 * k.val = k.val; omega

/-- The bias block at a point holds the bias entries 512·j + q. -/
theorem zblk_at (c : Dev nD) (t : Fin cfg0.N) (q : Fin 512) (C : Fin 8192)
    (hC : C.val = win0_3.index t (1 : Fin 2) * 512 + q.val) :
    zblk m c t (ix2 (0 : Fin 1) q) = Staged.param m c (ix2 C bcol) := by
  obtain ⟨-, -, -, -, e4, e5, -⟩ := grid_facts t
  show (V m c main_v3 : S1x8192.Idx → EReal) (((cfg0.win 2).blk t).view.emb (ix2 (0 : Fin 1) q)) = _
  rw [← Staged.biasrow_at m c C]
  refine congrArg (V m c main_v3 : S1x8192.Idx → EReal) (funext fun a => Fin.ext ?_)
  match a with
  | ⟨0, _⟩ => show win0_2.index t (0 : Fin 2) * 1 + 1 * 0 = 0; omega
  | ⟨1, _⟩ => show win0_2.index t (1 : Fin 2) * 512 + 1 * q.val = C.val; omega

/-! ## What a point writes back, and the array after the run -/

/-- What point `t` writes back is block `t` of `affine` of the arguments. -/
theorem flushed_eq (c : Dev nD) (t : Fin cfg0.N) :
    (dats m 0 c).flushed 3 t = ((cfg0.win 3).blk t).view.read (Elt Ideal) (affine (input m c) (Staged.param m c)) := by
  rw [Cert.KernelIdeal.Value.flushed3]
  unfold out0_3
  rw [View.canon_unit_zero zero_off]
  simp only [View.ld_unit_zero (S := S1024x2048) zero_off, View.ld_unit_zero (S := S512x2048) zero_off,
    View.ld_unit_zero (S := S1x512) zero_off]
  obtain ⟨-, -, -, -, -, -, e6, e7⟩ := grid_facts t
  show k0_pay1 (F := Ideal) (ablk m c t) (bblk m c t) (zblk m c t)
    = fun j : S1024x512.Idx => affine (input m c) (Staged.param m c) (((cfg0.win 3).blk t).view.emb j)
  funext j
  obtain ⟨p, q, rfl⟩ : ∃ (p : Fin 1024) (q : Fin 512), j = ix2 p q := ⟨j 0, j 1, eq_ix2 j⟩
  have hp : p.val < 1024 := p.isLt
  have hq : q.val < 512 := q.isLt
  refine (stored_is_block (input m c) (Staged.param m c) (ablk m c t) (bblk m c t) (zblk m c t)
    (fun p' => ⟨win0_3.index t (0 : Fin 2) * 1024 + p'.val, by have := p'.isLt; omega⟩)
    (fun q' => ⟨win0_3.index t (1 : Fin 2) * 512 + q'.val, by have := q'.isLt; omega⟩)
    (fun p' k => ablk_at m c t p' k _ rfl) (fun q' k => bblk_at m c t q' k _ rfl) (fun q' => zblk_at m c t q' _ rfl) p q).trans ?_
  show affineAt _ _ _ _ = affineAt _ _ _ _
  congr 1
  · exact Fin.ext (by show win0_3.index t (0 : Fin 2) * 1024 + p.val = win0_3.index t (0 : Fin 2) * 1024 + 1 * p.val; omega)
  · exact Fin.ext (by show win0_3.index t (1 : Fin 2) * 512 + q.val = win0_3.index t (1 : Fin 2) * 512 + 1 * q.val; omega)

/-- An index of the result is in point `t`'s block iff each coordinate is in the block's range on its axis. -/
theorem mem_block (t : Fin cfg0.N) (i : S4096x8192.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- Every index of the result lies in the block of the point (row / 1024, column / 512). -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := grid_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run. -/
theorem final (c : Dev nD) : (dats m 0 c).arrAt 3 cfg0.N = affine (input m c) (Staged.param m c) :=
  (dats m 0 c).arrAt_eq_of_cover 3 (affine (input m c) (Staged.param m c)) (fun t _ => flushed_eq m c t) covered

/-- The kernel's run: the result array ends at `affine` of the arguments, the arguments unchanged. -/
theorem run : θ_run defs (onTc (τ := τ) (main (F := Ideal))) ⟨m, fun _ => 0, ρ⟩ fun r => ∀ c : Dev nD,
      r.2.mem ((c : Thread nD τ).loc main_v4) = affine (input m c) (Staged.param m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Affine.Kernel

end
-- ==== Proof.lean ====
/-
  A linear layer whose weights and bias live in one parameter matrix. The input `x` is [4096, 2048]; the
  parameter matrix `w` is [8192, 2049], columns 0 … 2047 the weights and column 2048 the bias. Both programs
  compute, on the extended reals,

      out[r, s] = (Σ_{k < 2048} x[r, k] · w[s, k]) + w[s, 2048]          (`Cert.Affine.affine`).

  The reference multiplies `x` by the weights slice with both second axes contracted and adds the bias column,
  flattened and repeated down the rows. The kernel tiles the result into 4 × 16 blocks of [1024, 512]; at block
  (i, j) it multiplies rows 1024·i … of `x` by weight rows 512·j … over the whole contraction axis, into a zero
  accumulator, and adds bias entries 512·j …; the narrowing of the operands before the product is a change of
  format, the identity on the extended reals. Every block contracts all 2048 columns, so the two sums have the
  same terms in the same order and no law of arithmetic beyond `0 + s = s` is used: the inputs' finiteness is
  not needed.

  The kernel's frames are the generated ones; the reference's frame is its generated run with the result
  dropped; the idealization rewrote nothing, so there is nothing to preserve.
-/
import proofs.«148127_j4114578669651_1_alg».proof.Defs
import proofs.«148127_j4114578669651_1_alg».proof.Proof.Gen.Kernel
import proofs.«148127_j4114578669651_1_alg».proof.Proof.Gen.Kernel.Skeleton
import proofs.«148127_j4114578669651_1_alg».proof.Proof.Gen.Kernel.Launch
import proofs.«148127_j4114578669651_1_alg».proof.Proof.Gen.Kernel.Points
import proofs.«148127_j4114578669651_1_alg».proof.Proof.Gen.Kernel.Frame
import proofs.«148127_j4114578669651_1_alg».proof.Proof.Gen.KernelIdeal
import proofs.«148127_j4114578669651_1_alg».proof.Proof.Gen.KernelIdeal.Skeleton
import proofs.«148127_j4114578669651_1_alg».proof.Proof.Gen.KernelIdeal.Launch
import proofs.«148127_j4114578669651_1_alg».proof.Proof.Gen.KernelIdeal.Points
import proofs.«148127_j4114578669651_1_alg».proof.Proof.Gen.KernelIdeal.Frame
import proofs.«148127_j4114578669651_1_alg».proof.Proof.Gen.ReferenceIdeal
import proofs.«148127_j4114578669651_1_alg».proof.Proof.Gen.Pre_finite_inputs
import proofs.«148127_j4114578669651_1_alg».proof.Proof.Gen.KernelIdeal.Value
import proofs.«148127_j4114578669651_1_alg».proof.Proof.Gen.ReferenceIdeal.Run
import proofs.«148127_j4114578669651_1_alg».proof.Proof.Gen.ReferenceIdeal.Read
import proofs.«148127_j4114578669651_1_alg».proof.Proof.RefIsAffine
import proofs.«148127_j4114578669651_1_alg».proof.Proof.KernelRun
import Idealize.ShloMosaic.Adequacy
import Idealize.ShloMosaic.Init

noncomputable section

namespace Cert.Proof

open Idealize.ShloMosaic Idealize.ShloMosaic.TcCoe Idealize.SL.Sem Cert.Affine

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `w`, the kernel's result array and the reference's both end at
    `affine x w`. -/
theorem algebraic : Cert.algebraic_KernelIdeal_ReferenceIdeal := by
  intro m ρ m' ρ' _ hagree
  refine ⟨fun c => affine (Kernel.input m c) (Staged.param m c), Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Ref.val_eq_affine, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
